-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096 : Shape := ⟨1, ![4096]⟩
abbrev S4096x1 : Shape := ⟨2, ![4096, 1]⟩
abbrev S2048x8192 : Shape := ⟨2, ![2048, 8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg5 : FVec F S8192x2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192x2048 .f32 := Host.absf main_arg5
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x2048 .f32) (main_arg1 : IVec S4096 32) (main_arg2 : FVec F S4096x1 .f32) (main_arg3 : FVec F S2048x8192 .f32) (main_arg4 : FVec F S2048x8192 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S2048x8192 .f32 := Host.absf main_arg4
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg5 main_v13 main_v16
-- ==== Kernel.lean ====
abbrev S8192x2048 : Shape := ⟨2, ![8192, 2048]⟩
abbrev S4096 : Shape := ⟨1, ![4096]⟩
abbrev S4096x1 : Shape := ⟨2, ![4096, 1]⟩
abbrev S2048x8192 : Shape := ⟨2, ![2048, 8192]⟩
abbrev S_ : Shape := ⟨0, ![]⟩
abbrev S1 : Shape := ⟨1, ![1]⟩
abbrev S1x1 : Shape := ⟨2, ![1, 1]⟩
abbrev S4096x2048 : Shape := ⟨2, ![4096, 2048]⟩
abbrev S512x2048 : Shape := ⟨2, ![512, 2048]⟩
abbrev S2048x256 : Shape := ⟨2, ![2048, 256]⟩
abbrev S256x2048 : Shape := ⟨2, ![256, 2048]⟩
abbrev S512x1 : Shape := ⟨2, ![512, 1]⟩
abbrev S512x256 : Shape := ⟨2, ![512, 256]⟩

abbrev nBuf : Space → Nat
  | .hbm => 31
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S4096, .i32⟩
  | .hbm, ⟨2, _⟩ => ⟨S4096x1, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x2048, .f32⟩
  | .hbm, ⟨25, _⟩ => ⟨S4096x2048, .i1⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .bf16⟩
  | .hbm, ⟨30, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x2048, .f32⟩
  | .local _ .vmem, ⟨7, _⟩ => ⟨S256x2048, .f32⟩
  | .local _ .vmem, ⟨8, _⟩ => ⟨S512x1, .f32⟩
  | .local _ .vmem, ⟨9, _⟩ => ⟨S512x1, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x2048_0 : S4096.BroadcastsInDim S4096x2048 (![0] : Fin 1 → Fin S4096x2048.rank)
  bcast_S_S4096x2048 : S_.BroadcastsInDim S4096x2048 (![] : Fin 0 → Fin S4096x2048.rank)
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  inb_S256x2048_S256x2048_0_0 : ∀ a, (![0, 0] : Fin 2 → Nat) a + S256x2048.size a ≤ S256x2048.size a
  h_S256x2048 : 0 < S256x2048.numel
  inb_S512x1_S512x1_0_0 : ∀ a, (![0, 0] : Fin 2 → Nat) a + S512x1.size a ≤ S512x1.size a
  h_S512x1 : 0 < S512x1.numel
  broadcasts_S512x1_S512x2048 : S512x1.Broadcasts S512x2048
  gather_S8192x2048_S4096x1_S4096x2048_1_0_n_n_0_1_12048_wf : GatherDims.WF S8192x2048 S4096x1 S4096x2048 [1] [0] [] [0] [] 1 ![1, 2048]
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x8192.size a
  hwx0_1 : ∀ i : grid0.Coords, EltTy.bits .f32 = 32 ∨ (Rect.block (s := S2048x8192) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x8192.size a
  hwx0_2 : ∀ i : grid0.Coords, EltTy.bits .f32 = 32 ∨ (Rect.block (s := S2048x8192) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S4096x2048.size a
  hwx0_5 : ∀ i : grid0.Coords, EltTy.bits .f32 = 32 ∨ (Rect.block (s := S4096x2048) S512x2048.size (cc0_transform_5 i) (hinb0_5 i)).WholeWords (EltTy.packing .f32)

variable [Facts₀]

def gather_S8192x2048_S4096x1_S4096x2048_1_0_n_n_0_1_12048 : GatherDims S8192x2048 S4096x1 S4096x2048 where
  offsetDims := [1]
  collapsedSliceDims := [0]
  operandBatchingDims := []
  startIndicesBatchingDims := []
  startIndexMap := [0]
  indexVectorDim := 1
  sliceSizes := ![1, 2048]
  wf := gather_S8192x2048_S4096x1_S4096x2048_1_0_n_n_0_1_12048_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x2048 : Shape := ⟨2, ![8192, 2048]⟩
abbrev S4096 : Shape := ⟨1, ![4096]⟩
abbrev S4096x1 : Shape := ⟨2, ![4096, 1]⟩
abbrev S2048x8192 : Shape := ⟨2, ![2048, 8192]⟩
abbrev S_ : Shape := ⟨0, ![]⟩
abbrev S1 : Shape := ⟨1, ![1]⟩
abbrev S1x1 : Shape := ⟨2, ![1, 1]⟩
abbrev S4096x2048 : Shape := ⟨2, ![4096, 2048]⟩
abbrev S4096x8192 : Shape := ⟨2, ![4096, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096, .i32⟩
  | .hbm, ⟨2, _⟩ => ⟨S4096x1, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x2048, .f32⟩
  | .hbm, ⟨25, _⟩ => ⟨S4096x2048, .i1⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096x8192, .f32⟩
  | .hbm, ⟨34, _⟩ => ⟨S4096x8192, .f32⟩
  | .hbm, ⟨35, _⟩ => ⟨S_, .f32⟩
  | .hbm, ⟨36, _⟩ => ⟨S4096x8192, .f32⟩
  | .hbm, ⟨37, _⟩ => ⟨S4096x8192, .f32⟩
  | .hbm, ⟨38, _⟩ => ⟨S4096x8192, .f32⟩
  | .hbm, ⟨39, _⟩ => ⟨S4096x8192, .f32⟩
  | .hbm, ⟨40, _⟩ => ⟨S4096x8192, .f32⟩
  | .hbm, ⟨41, _⟩ => ⟨S4096x2048, .f32⟩
  | .hbm, ⟨42, _⟩ => ⟨S4096x2048, .f32⟩
  | .hbm, ⟨43, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x2048_0 : S4096.BroadcastsInDim S4096x2048 (![0] : Fin 1 → Fin S4096x2048.rank)
  bcast_S_S4096x2048 : S_.BroadcastsInDim S4096x2048 (![] : Fin 0 → Fin S4096x2048.rank)
  bcast_S_S4096x8192 : S_.BroadcastsInDim S4096x8192 (![] : Fin 0 → Fin S4096x8192.rank)
  bcast_S4096x1_S4096x2048_0_1 : S4096x1.BroadcastsInDim S4096x2048 (![0, 1] : Fin 2 → Fin S4096x2048.rank)
  gather_S8192x2048_S4096x1_S4096x2048_1_0_n_n_0_1_12048_wf : GatherDims.WF S8192x2048 S4096x1 S4096x2048 [1] [0] [] [0] [] 1 ![1, 2048]
  dot_S4096x2048_S2048x8192_S4096x8192_1_0_0_1_n_n_wf : DotDims.WF S4096x2048 S2048x8192 S4096x8192 [1] [0] [0] [1] [] []
  dot_S4096x8192_S8192x2048_S4096x2048_1_0_0_1_n_n_wf : DotDims.WF S4096x8192 S8192x2048 S4096x2048 [1] [0] [0] [1] [] []

variable [Facts₀]

def gather_S8192x2048_S4096x1_S4096x2048_1_0_n_n_0_1_12048 : GatherDims S8192x2048 S4096x1 S4096x2048 where
  offsetDims := [1]
  collapsedSliceDims := [0]
  operandBatchingDims := []
  startIndicesBatchingDims := []
  startIndexMap := [0]
  indexVectorDim := 1
  sliceSizes := ![1, 2048]
  wf := gather_S8192x2048_S4096x1_S4096x2048_1_0_n_n_0_1_12048_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.Pieces.lean ====
/-
  What one grid point leaves in the accumulator block and in the output block, as plain terms of the
  blocks it loads.  The accumulator block (512 token rows by 2048 model columns) is zeroed at the first
  hidden-dimension tile of a token tile, every tile adds its partial down-projection to it, and the last
  tile multiplies the finished sum by the routing weight of each token row and stores that as the output
  block.
-/
import proofs.«113124_j49443663512208_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Carry

open Cert.KernelIdeal Cert.KernelIdeal.Gen

variable {F : FTy → Type} [FloatOps F]

theorem origin2 : (![0, 0] : Fin 2 → Nat) = fun _ => 0 := funext fun a => by fin_cases a <;> rfl

/-- A middle tile adds its partial product to what the accumulator held. -/
theorem acc_mid (c : Dev nD) (i : grid0.Coords) (arg2 : Memref sig .tc .vmem S512x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : ¬cond0_1 i) (x0 : Vec F S512x2048 .bf16) (x1 : Vec F S2048x256 .f32) (x2 : Vec F S2048x256 .f32) (x3 : Vec F S256x2048 .f32) (x4 : Vec F S512x1 .f32) (xs0 : Vec F S512x2048 .f32) :
    sout0_B_0 c i arg2 harg2 arg3 harg3 arg4 harg4 arg5 harg5 arg6 harg6 arg7 harg7 arg8 harg8 hc0 hc1 x0 x1 x2 x3 x4 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero origin2]
  simp only [View.readAt_eq_ld, harg2.read_unread, harg3.read_unread, harg4.read_unread, harg5.read_unread, harg8.read_unread,
    View.ld_unit_zero (S := S512x2048) origin2, View.ld_unit_zero (S := S2048x256) origin2, View.ld_unit_zero (S := S256x2048) origin2]

/-- The last tile does the same to the accumulator … -/
theorem acc_last (c : Dev nD) (i : grid0.Coords) (arg2 : Memref sig .tc .vmem S512x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i) (x0 : Vec F S512x2048 .bf16) (x1 : Vec F S2048x256 .f32) (x2 : Vec F S2048x256 .f32) (x3 : Vec F S256x2048 .f32) (x4 : Vec F S512x1 .f32) (xs0 : Vec F S512x2048 .f32) :
    sout0_C_0 c i arg2 harg2 arg3 harg3 arg4 harg4 arg5 harg5 arg6 harg6 arg7 harg7 arg8 harg8 hc0 hc1 x0 x1 x2 x3 x4 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero origin2]
  simp only [View.readAt_eq_ld, harg2.read_unread, harg3.read_unread, harg4.read_unread, harg5.read_unread, harg8.read_unread,
    View.ld_unit_zero (S := S512x2048) origin2, View.ld_unit_zero (S := S2048x256) origin2, View.ld_unit_zero (S := S256x2048) origin2]

/-- … and stores the finished sum, each row scaled by its routing weight, as the output block. -/
theorem out_last (c : Dev nD) (i : grid0.Coords) (arg2 : Memref sig .tc .vmem S512x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x2048 .f32) (harg8 : arg8.IsWhole) (hc0 : ¬cond0_0 i) (hc1 : cond0_1 i) (x0 : Vec F S512x2048 .bf16) (x1 : Vec F S2048x256 .f32) (x2 : Vec F S2048x256 .f32) (x3 : Vec F S256x2048 .f32) (x4 : Vec F S512x1 .f32) (xs0 : Vec F S512x2048 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero origin2]
  simp only [View.readCov_unit_zero (S := S512x2048) _ origin2, View.readAt_eq_ld, harg2.read_unread, harg3.read_unread, harg4.read_unread,
    harg5.read_unread, harg6.read_unread, harg8.read_unread, View.ld_unit_zero (S := S512x2048) origin2,
    View.ld_unit_zero (S := S2048x256) origin2, View.ld_unit_zero (S := S256x2048) origin2, View.ld_unit_zero (S := S512x1) origin2]

/-- The first tile zeroes the accumulator, then adds its partial product. -/
theorem acc_first (c : Dev nD) (i : grid0.Coords) (arg2 : Memref sig .tc .vmem S512x2048 .bf16) (harg2 : arg2.IsWhole) (arg3 : Memref sig .tc .vmem S2048x256 .f32) (harg3 : arg3.IsWhole) (arg4 : Memref sig .tc .vmem S2048x256 .f32) (harg4 : arg4.IsWhole) (arg5 : Memref sig .tc .vmem S256x2048 .f32) (harg5 : arg5.IsWhole) (arg6 : Memref sig .tc .vmem S512x1 .f32) (harg6 : arg6.IsWhole) (arg7 : Memref sig .tc .vmem S512x2048 .f32) (harg7 : arg7.IsWhole) (arg8 : Memref sig .tc .vmem S512x2048 .f32) (harg8 : arg8.IsWhole) (hc0 : cond0_0 i) (hc1 : ¬cond0_1 i) (x0 : Vec F S512x2048 .bf16) (x1 : Vec F S2048x256 .f32) (x2 : Vec F S2048x256 .f32) (x3 : Vec F S256x2048 .f32) (x4 : Vec F S512x1 .f32) :
    sout0_A_0 c i arg2 harg2 arg3 harg3 arg4 harg4 arg5 harg5 arg6 harg6 arg7 harg7 arg8 harg8 hc0 hc1 x0 x1 x2 x3 x4 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x2048) origin2, View.readCov_unit_zero (S := S512x2048) _ origin2]
  simp only [View.readAt_eq_ld, harg2.read_unread, harg3.read_unread, harg4.read_unread, harg5.read_unread,
    View.ld_unit_zero (S := S512x2048) origin2, View.ld_unit_zero (S := S2048x256) origin2, View.ld_unit_zero (S := S256x2048) origin2]

end Cert.KernelIdeal.Carry

end
-- ==== Proof.Spec.lean ====
/-
  The mathematics both programs compute, over the extended reals, with no program in sight.
  For gathered token rows X [4096, 2048], gate and up weights W1, W3 [2048, 8192], down weights
  W2 [8192, 2048] and routing weights RW [4096, 1]:
      gate b f = Σ_k X[b,k]·W1[k,f],   up b f = Σ_k X[b,k]·W3[k,f],
      hid b f  = (gate b f · σ(gate b f)) · up b f          (σ the logistic function),
      out b h  = (Σ_f hid b f · W2[f,h]) · RW[b,0].
  The sum over the 8192 hidden features may be taken 256 at a time (32 tiles): addition of extended
  reals is associative and commutative, so no finiteness is needed anywhere; the routing weight may
  stand on either side of the product because multiplication is commutative.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx Finset

/-! ## Two-axis arrays read at natural-number coordinates -/

/-- Entry `(p, q)` of a two-axis array; zero outside it (never used there). -/
def at2 {n0 n1 : ℕ} (A : (⟨2, ![n0, n1]⟩ : Shape).Idx → EReal) (p q : ℕ) : EReal :=
  if h : p < n0 ∧ q < n1 then A (ix2 ⟨p, h.1⟩ ⟨q, h.2⟩) else 0

theorem at2_mk {n0 n1 : ℕ} (A : (⟨2, ![n0, n1]⟩ : Shape).Idx → EReal) (p q : ℕ) (hp : p < n0) (hq : q < n1) :
    at2 A p q = A (ix2 ⟨p, hp⟩ ⟨q, hq⟩) := dif_pos ⟨hp, hq⟩

theorem at2_idx {n0 n1 : ℕ} (A : (⟨2, ![n0, n1]⟩ : Shape).Idx → EReal) (j : (⟨2, ![n0, n1]⟩ : Shape).Idx) :
    at2 A (j 0).val (j 1).val = A j := by
  rw [at2_mk A _ _ (idx2_lt0 j) (idx2_lt1 j)]
  exact congrArg A (eq_ix2 j).symm

/-! ## The expert -/

abbrev Rows : Shape := ⟨2, ![4096, 2048]⟩
abbrev Up : Shape := ⟨2, ![2048, 8192]⟩
abbrev Down : Shape := ⟨2, ![8192, 2048]⟩
abbrev Col : Shape := ⟨2, ![4096, 1]⟩

/-- One entry of a projection `X · W`. -/
def proj (X : Rows.Idx → EReal) (W : Up.Idx → EReal) (b f : ℕ) : EReal :=
  ∑ k ∈ range 2048, at2 X b k * at2 W k f

/-- The gated hidden activation. -/
def hid (X : Rows.Idx → EReal) (W1 W3 : Up.Idx → EReal) (b f : ℕ) : EReal :=
  (proj X W1 b f * Ideal.logistic (proj X W1 b f)) * proj X W3 b f

/-- The expert's output. -/
def expert (X : Rows.Idx → EReal) (W1 W3 : Up.Idx → EReal) (W2 : Down.Idx → EReal) (RW : Col.Idx → EReal) : Rows.Idx → EReal :=
  fun i => (∑ f ∈ range 8192, hid X W1 W3 (i 0).val f * at2 W2 f (i 1).val) * at2 RW (i 0).val 0

/-! ## A matrix product's sum over its one contracted axis, by coordinates -/

/-- A product `[n0, n1] · [n1, n2]` at output index `j`: the sum over the contraction index is the sum over
    `k < n1` of `l[j₀, k] · r[k, j₁]`, once the dimension record's index maps are known coordinate by coordinate. -/
theorem dot_at2 {n0 n1 n2 : ℕ} (d : DotDims ⟨2, ![n0, n1]⟩ ⟨2, ![n1, n2]⟩ ⟨2, ![n0, n2]⟩) (hr : d.contr.rank = 1)
    (hs : d.contr.size ⟨0, by omega⟩ = n1)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (l : (⟨2, ![n0, n1]⟩ : Shape).Idx → EReal) (r : (⟨2, ![n1, n2]⟩ : Shape).Idx → EReal) (j : (⟨2, ![n0, n2]⟩ : Shape).Idx) :
    ∑ k : d.contr.Idx, l (d.lhsIdx j k) * r (d.rhsIdx j k) = ∑ k ∈ range n1, at2 l (j 0).val k * at2 r k (j 1).val := by
  rw [← Equiv.sum_comp (contrEquiv1 d n1 hr hs).symm,
    ← Fin.sum_univ_eq_sum_range (fun k => at2 l (j 0).val k * at2 r k (j 1).val) n1]
  refine Finset.sum_congr rfl fun c _ => ?_
  rw [← at2_idx l, ← at2_idx r, hl0, hl1, hr0, hr1, contrEquiv1_symm_val]

/-! ## Tiling the feature sum -/

theorem sum_tiles (a : ℕ → EReal) (q : ℕ) :
    ∑ n ∈ range (256 * q), a n = ∑ s ∈ range q, ∑ k ∈ range 256, a (256 * s + k) := by
  induction q with
  | zero => simp
  | succ q ih => rw [Nat.mul_succ, Finset.sum_range_add, ih, Finset.sum_range_succ (fun s => ∑ k ∈ range 256, a (256 * s + k)) q]

/-- The 32 tiles of 256 features, added to zero one after the other, are the whole feature sum. -/
theorem tiles_total (a : ℕ → EReal) :
    (0 : EReal) + ∑ s ∈ range (31 + 1), ∑ k ∈ range 256, a (256 * s + k) = ∑ f ∈ range 8192, a f := by
  rw [zero_add, ← sum_tiles a (31 + 1)]

/-! ## Constants and the logistic function -/

theorem ofBits_one : Ideal.ofBits .f32 0x3F800000#32 = 1 := by
  simp [Ideal.ofBits, Ideal.ieee, -EReal.coe_mul]; norm_num

/-- `1 / (1 + e^(-x))` spelled with the division and exponential IS the logistic function, at every extended real. -/
theorem logistic_spelled (x : EReal) : Ideal.div 1 (1 + Ideal.exp (-x)) = Ideal.logistic x := rfl

end Cert.Spec

end
-- ==== Proof.Tile.lean ====
/-
  One tile's arithmetic at an index of the accumulator block.  A tile holds 512 token rows x [512, 2048],
  256 columns of the gate and up weights w1, w3 [2048, 256] and the matching 256 rows of the down weights
  w2 [256, 2048].  It adds to the accumulator entry (r, h)
      Σ_{k < 256} ((x·w1)[r,k] · σ((x·w1)[r,k])) · (x·w3)[r,k] · w2[k,h],
  each matrix product a plain sum over its contracted axis (products into a zero accumulator).
-/
import proofs.«113124_j49443663512208_2_alg».proof.Proof.Gen.KernelIdeal.Skeleton
import proofs.«113124_j49443663512208_2_alg».proof.Proof.Spec
import Idealize.ShloMosaic.Lib.Pipeline.Value

noncomputable section

open Idealize.ShloMosaic Idealize.ShloMosaic.ValueIdx Finset

namespace Cert.KernelIdeal.Carry

open Cert.KernelIdeal Cert.KernelIdeal.Gen Cert.Spec

/-! ## The two products' index maps, coordinate by coordinate -/

theorem up_l0 (j : S512x256.Idx) (k : dot_S512x2048_S2048x256_S512x256_1_0_0_1_n_n.contr.Idx) :
    (dot_S512x2048_S2048x256_S512x256_1_0_0_1_n_n.lhsIdx j k 0).val = (j 0).val := by
  simp [DotDims.lhsIdx, dot_S512x2048_S2048x256_S512x256_1_0_0_1_n_n]; rfl
theorem up_l1 (j : S512x256.Idx) (k : dot_S512x2048_S2048x256_S512x256_1_0_0_1_n_n.contr.Idx) :
    (dot_S512x2048_S2048x256_S512x256_1_0_0_1_n_n.lhsIdx j k 1).val = (k ⟨0, by decide⟩).val := by
  simp [DotDims.lhsIdx, dot_S512x2048_S2048x256_S512x256_1_0_0_1_n_n]; rfl
theorem up_r0 (j : S512x256.Idx) (k : dot_S512x2048_S2048x256_S512x256_1_0_0_1_n_n.contr.Idx) :
    (dot_S512x2048_S2048x256_S512x256_1_0_0_1_n_n.rhsIdx j k 0).val = (k ⟨0, by decide⟩).val := by
  simp [DotDims.rhsIdx, dot_S512x2048_S2048x256_S512x256_1_0_0_1_n_n]; rfl
theorem up_r1 (j : S512x256.Idx) (k : dot_S512x2048_S2048x256_S512x256_1_0_0_1_n_n.contr.Idx) :
    (dot_S512x2048_S2048x256_S512x256_1_0_0_1_n_n.rhsIdx j k 1).val = (j 1).val := by
  simp [DotDims.rhsIdx, dot_S512x2048_S2048x256_S512x256_1_0_0_1_n_n]; rfl

theorem down_l0 (j : S512x2048.Idx) (k : dot_S512x256_S256x2048_S512x2048_1_0_0_1_n_n.contr.Idx) :
    (dot_S512x256_S256x2048_S512x2048_1_0_0_1_n_n.lhsIdx j k 0).val = (j 0).val := by
  simp [DotDims.lhsIdx, dot_S512x256_S256x2048_S512x2048_1_0_0_1_n_n]; rfl
theorem down_l1 (j : S512x2048.Idx) (k : dot_S512x256_S256x2048_S512x2048_1_0_0_1_n_n.contr.Idx) :
    (dot_S512x256_S256x2048_S512x2048_1_0_0_1_n_n.lhsIdx j k 1).val = (k ⟨0, by decide⟩).val := by
  simp [DotDims.lhsIdx, dot_S512x256_S256x2048_S512x2048_1_0_0_1_n_n]; rfl
theorem down_r0 (j : S512x2048.Idx) (k : dot_S512x256_S256x2048_S512x2048_1_0_0_1_n_n.contr.Idx) :
    (dot_S512x256_S256x2048_S512x2048_1_0_0_1_n_n.rhsIdx j k 0).val = (k ⟨0, by decide⟩).val := by
  simp [DotDims.rhsIdx, dot_S512x256_S256x2048_S512x2048_1_0_0_1_n_n]; rfl
theorem down_r1 (j : S512x2048.Idx) (k : dot_S512x256_S256x2048_S512x2048_1_0_0_1_n_n.contr.Idx) :
    (dot_S512x256_S256x2048_S512x2048_1_0_0_1_n_n.rhsIdx j k 1).val = (j 1).val := by
  simp [DotDims.rhsIdx, dot_S512x256_S256x2048_S512x2048_1_0_0_1_n_n]; rfl

/-! ## The tile's terms -/

/-- One entry of a tile's projection `x · w`. -/
def tileProj (x : S512x2048.Idx → EReal) (w : S2048x256.Idx → EReal) (r k : ℕ) : EReal :=
  ∑ k2 ∈ range 2048, at2 x r k2 * at2 w k2 k

/-- The tile's gated hidden activation. -/
def tileHid (x : S512x2048.Idx → EReal) (w1 w3 : S2048x256.Idx → EReal) (r k : ℕ) : EReal :=
  (tileProj x w1 r k * Ideal.logistic (tileProj x w1 r k)) * tileProj x w3 r k

/-- What the tile adds to the accumulator block. -/
def tileDown (x : S512x2048.Idx → EReal) (w1 w3 : S2048x256.Idx → EReal) (w2 : S256x2048.Idx → EReal) (y : S512x2048.Idx) : EReal :=
  ∑ k ∈ range 256, tileHid x w1 w3 (y 0).val k * at2 w2 k (y 1).val

/-- The up-projection product of a tile at an index. -/
theorem up_at (x : FVec Ideal S512x2048 .bf16) (w : FVec Ideal S2048x256 .bf16) (i : S512x256.Idx) :
    matmul dot_S512x2048_S2048x256_S512x256_1_0_0_1_n_n none x w (constant S512x256 .f32 0x00000000#32) i
      = tileProj x w (i 0).val (i 1).val := by
  simp only [matmul]
  rw [Ideal.matmul_constant_zero_apply]
  exact dot_at2 _ rfl rfl up_l0 up_l1 up_r0 up_r1 x w i

/-- The down-projection product of a tile at an index. -/
theorem down_at (h : FVec Ideal S512x256 .bf16) (w : FVec Ideal S256x2048 .bf16) (y : S512x2048.Idx) :
    matmul dot_S512x256_S256x2048_S512x2048_1_0_0_1_n_n none h w (constant S512x2048 .f32 0x00000000#32) y
      = ∑ k ∈ range 256, at2 h (y 0).val k * at2 w k (y 1).val := by
  simp only [matmul]
  rw [Ideal.matmul_constant_zero_apply]
  exact dot_at2 _ rfl rfl down_l0 down_l1 down_r0 down_r1 h w y

theorem logistic_at {s : Shape} {φ : FTy} (a : FVec Ideal s φ) (i : s.Idx) : logistic a i = Ideal.logistic (a i) := rfl

/-- The accumulating store's value at an index: what was there plus the tile's contribution. -/
theorem pay2_at (x0 : Vec Ideal S512x2048 .bf16) (x1 x2 : Vec Ideal S2048x256 .f32) (x3 : Vec Ideal S256x2048 .f32)
    (acc : Vec Ideal S512x2048 .f32) (y : S512x2048.Idx) :
    k0_pay2 x0 x1 x2 x3 acc y = acc y + tileDown x0 x1 x2 x3 y := by
  unfold k0_pay2
  simp only [shapeCast_self]
  rw [addf_apply]
  refine congrArg (acc y + ·) ?_
  refine (down_at _ _ y).trans ?_
  unfold tileDown
  refine Finset.sum_congr rfl fun k hk => ?_
  have hk' : k < 256 := Finset.mem_range.mp hk
  refine congrArg₂ (· * ·) ?_ rfl
  rw [at2_mk _ _ _ (idx2_lt0 y) hk', truncf_apply, mulf_apply, mulf_apply, logistic_at]
  unfold tileHid
  refine congrArg₂ (· * ·) (congrArg₂ (· * ·) ?_ (congrArg Ideal.logistic ?_)) ?_
  all_goals exact up_at _ _ _

/-- The zeroing store's value: zero everywhere. -/
theorem pay1_at (y : S512x2048.Idx) : k0_pay1 (F := Ideal) y = 0 := by
  unfold k0_pay1
  simp only [shapeCast_self]
  show Ideal.ofBits .f32 0x00000000#32 = 0
  exact Ideal.ofBits_zero_f32

/-- The output store's value at an index: the accumulator entry times its row's routing weight. -/
theorem pay3_at (v26 : Vec Ideal S512x2048 .f32) (v27 : Vec Ideal S512x1 .f32) (y : S512x2048.Idx) :
    k0_pay3 v26 v27 y = v26 y * at2 v27 (y 0).val 0 := by
  unfold k0_pay3
  rw [mulf_apply, at2_mk v27 _ 0 (idx2_lt0 y) (by decide)]
  refine congrArg (v26 y * ·) ?_
  exact broadcastTo_apply v27 _ y _ (fun a => by
    match a with
    | ⟨0, _⟩ => rfl
    | ⟨1, _⟩ => rfl)

end Cert.KernelIdeal.Carry

end
-- ==== Proof.Blocks.lean ====
/-
  Where each window's block sits in its array.  The grid is 8 token tiles by 32 feature tiles, the feature
  tile running fastest: point t is token tile t / 32 and feature tile t % 32.  The token rows' block at t is
  rows 512·(t/32) … of the gathered rows, the gate and up weights' blocks are columns 256·(t%32) … , the down
  weights' block is rows 256·(t%32) … , the routing weights' and the output's blocks are rows 512·(t/32) … .
-/
import proofs.«113124_j49443663512208_2_alg».proof.Proof.Gen.KernelIdeal.Frame
import proofs.«113124_j49443663512208_2_alg».proof.Proof.Spec
import Idealize.ShloMosaic.Lib.Pipeline.Value

noncomputable section

open Idealize.ShloMosaic Idealize.ShloMosaic.TcCoe Idealize.SL.Sem Idealize.ShloMosaic.ValueIdx Finset

namespace Cert.KernelIdeal.Carry

open Cert.KernelIdeal Cert.KernelIdeal.Gen Cert.Spec

variable (m : (ℓ : Loc nD τ sig) → Buf (Elt Ideal) ℓ)

/-! ## The index maps over the grid -/

theorem idx_rows : ∀ t : Fin cfg0.N, win0_0.index t (0 : Fin 2) = t.val / 32 ∧ win0_0.index t (1 : Fin 2) = 0 :=
  (by decide +kernel : ∀ t : Fin grid0.N, _)
theorem idx_gate : ∀ t : Fin cfg0.N, win0_1.index t (0 : Fin 2) = 0 ∧ win0_1.index t (1 : Fin 2) = t.val % 32 :=
  (by decide +kernel : ∀ t : Fin grid0.N, _)
theorem idx_up : ∀ t : Fin cfg0.N, win0_2.index t (0 : Fin 2) = 0 ∧ win0_2.index t (1 : Fin 2) = t.val % 32 :=
  (by decide +kernel : ∀ t : Fin grid0.N, _)
theorem idx_down : ∀ t : Fin cfg0.N, win0_3.index t (0 : Fin 2) = t.val % 32 ∧ win0_3.index t (1 : Fin 2) = 0 :=
  (by decide +kernel : ∀ t : Fin grid0.N, _)
theorem idx_route : ∀ t : Fin cfg0.N, win0_4.index t (0 : Fin 2) = t.val / 32 ∧ win0_4.index t (1 : Fin 2) = 0 :=
  (by decide +kernel : ∀ t : Fin grid0.N, _)
theorem idx_out : ∀ t : Fin cfg0.N, win0_5.index t (0 : Fin 2) = t.val / 32 ∧ win0_5.index t (1 : Fin 2) = 0 :=
  (by decide +kernel : ∀ t : Fin grid0.N, _)
/-- The output block is written back at the last feature tile of each token tile, and only there. -/
theorem flush_out : ∀ t : Fin cfg0.N, (cfg0.win 5).flush t = true ↔ t.val % 32 = 31 :=
  (by decide +kernel : ∀ t : Fin grid0.N, _)

/-! ## The blocks' entries -/

theorem rows_at (c : Dev nD) (t : Fin cfg0.N) (r k : ℕ) (hr : r < 512) (hk : k < 2048) :
    at2 (iblk m c 0 t : S512x2048.Idx → EReal) r k = at2 (V m c main_v1 : S4096x2048.Idx → EReal) (512 * (t.val / 32) + r) k := by
  have hN : t.val < 256 := lt_of_lt_of_eq t.isLt N_0
  rw [at2_mk _ _ _ hr hk, at2_mk _ _ _ (by omega) hk]
  unfold iblk
  rw [View.read_apply]
  show V m c main_v1 _ = V m c main_v1 _
  refine congrArg _ (funext fun a => Fin.ext ?_)
  match a with
  | ⟨0, _⟩ => show win0_0.index t (0 : Fin 2) * 512 + 1 * r = 512 * (t.val / 32) + r; rw [(idx_rows t).1]; omega
  | ⟨1, _⟩ => show win0_0.index t (1 : Fin 2) * 2048 + 1 * k = k; rw [(idx_rows t).2]; omega

theorem gate_at (c : Dev nD) (t : Fin cfg0.N) (k2 k : ℕ) (hk2 : k2 < 2048) (hk : k < 256) :
    at2 (iblk m c 1 t : S2048x256.Idx → EReal) k2 k = at2 (V m c main_arg3 : S2048x8192.Idx → EReal) k2 (256 * (t.val % 32) + k) := by
  rw [at2_mk _ _ _ hk2 hk, at2_mk _ _ _ hk2 (by omega)]
  unfold iblk
  rw [View.read_apply]
  show V m c main_arg3 _ = V m c main_arg3 _
  refine congrArg _ (funext fun a => Fin.ext ?_)
  match a with
  | ⟨0, _⟩ => show win0_1.index t (0 : Fin 2) * 2048 + 1 * k2 = k2; rw [(idx_gate t).1]; omega
  | ⟨1, _⟩ => show win0_1.index t (1 : Fin 2) * 256 + 1 * k = 256 * (t.val % 32) + k; rw [(idx_gate t).2]; omega

theorem up_at' (c : Dev nD) (t : Fin cfg0.N) (k2 k : ℕ) (hk2 : k2 < 2048) (hk : k < 256) :
    at2 (iblk m c 2 t : S2048x256.Idx → EReal) k2 k = at2 (V m c main_arg4 : S2048x8192.Idx → EReal) k2 (256 * (t.val % 32) + k) := by
  rw [at2_mk _ _ _ hk2 hk, at2_mk _ _ _ hk2 (by omega)]
  unfold iblk
  rw [View.read_apply]
  show V m c main_arg4 _ = V m c main_arg4 _
  refine congrArg _ (funext fun a => Fin.ext ?_)
  match a with
  | ⟨0, _⟩ => show win0_2.index t (0 : Fin 2) * 2048 + 1 * k2 = k2; rw [(idx_up t).1]; omega
  | ⟨1, _⟩ => show win0_2.index t (1 : Fin 2) * 256 + 1 * k = 256 * (t.val % 32) + k; rw [(idx_up t).2]; omega

theorem down_at' (c : Dev nD) (t : Fin cfg0.N) (k h : ℕ) (hk : k < 256) (hh : h < 2048) :
    at2 (iblk m c 3 t : S256x2048.Idx → EReal) k h = at2 (V m c main_arg5 : S8192x2048.Idx → EReal) (256 * (t.val % 32) + k) h := by
  rw [at2_mk _ _ _ hk hh, at2_mk _ _ _ (by omega) hh]
  unfold iblk
  rw [View.read_apply]
  show V m c main_arg5 _ = V m c main_arg5 _
  refine congrArg _ (funext fun a => Fin.ext ?_)
  match a with
  | ⟨0, _⟩ => show win0_3.index t (0 : Fin 2) * 256 + 1 * k = 256 * (t.val % 32) + k; rw [(idx_down t).1]; omega
  | ⟨1, _⟩ => show win0_3.index t (1 : Fin 2) * 2048 + 1 * h = h; rw [(idx_down t).2]; omega

theorem route_at (c : Dev nD) (t : Fin cfg0.N) (r : ℕ) (hr : r < 512) :
    at2 (iblk m c 4 t : S512x1.Idx → EReal) r 0 = at2 (V m c main_arg2 : S4096x1.Idx → EReal) (512 * (t.val / 32) + r) 0 := by
  have hN : t.val < 256 := lt_of_lt_of_eq t.isLt N_0
  rw [at2_mk _ _ _ hr (by decide), at2_mk _ _ _ (by omega) (by decide)]
  unfold iblk
  rw [View.read_apply]
  show V m c main_arg2 _ = V m c main_arg2 _
  refine congrArg _ (funext fun a => Fin.ext ?_)
  match a with
  | ⟨0, _⟩ => show win0_4.index t (0 : Fin 2) * 512 + 1 * r = 512 * (t.val / 32) + r; rw [(idx_route t).1]; omega
  | ⟨1, _⟩ => show win0_4.index t (1 : Fin 2) * 1 + 1 * 0 = 0; rw [(idx_route t).2]

end Cert.KernelIdeal.Carry

end
-- ==== Proof.KernelSide.lean ====
/-
  The kernel's result array, as the specification's expert of the arrays the region finds.
  Per token tile the accumulator block runs through 32 feature tiles: zero, then one tile's partial down
  projection after another; the last tile scales each row by its routing weight and the block is written
  back.  Summed over the tiles the partial projections are the whole projection over the 8192 features,
  because addition of extended reals is associative and commutative; the eight written blocks cover the array.
-/
import proofs.«113124_j49443663512208_2_alg».proof.Proof.Gen.KernelIdeal.Value
import proofs.«113124_j49443663512208_2_alg».proof.Proof.Pieces
import proofs.«113124_j49443663512208_2_alg».proof.Proof.Tile
import proofs.«113124_j49443663512208_2_alg».proof.Proof.Blocks
import Idealize.ShloMosaic.Lib.StableHlo.Run

noncomputable section

open Idealize.ShloMosaic Idealize.ShloMosaic.TcCoe Idealize.SL.Sem Idealize.ShloMosaic.ValueIdx Finset
open Idealize.ShloMosaic.Pipeline (Dat)

namespace Cert.KernelIdeal.Carry

open Cert.KernelIdeal Cert.KernelIdeal.Gen Cert.KernelIdeal.Value Cert.Spec

/-! ## What a point leaves in the accumulator, by its place in the token tile -/

section AnyInstance
variable {F : FTy → Type} [FloatOps F]
variable (m : (ℓ : Loc nD τ sig) → Buf (Elt F) ℓ)

/-- At the first feature tile: zero plus the tile's contribution. -/
theorem carried_first (c : Dev nD) (n : ℕ) (hb : n < cfg0.N) (acc : Vec F S512x2048 .f32) (h0 : n % 32 = 0) :
    scAt0_0 m c n hb acc = k0_pay2 (iblk m c 0 ⟨n, hb⟩) (iblk m c 1 ⟨n, hb⟩) (iblk m c 2 ⟨n, hb⟩) (iblk m c 3 ⟨n, hb⟩) (k0_pay1 (F := F)) := by
  have h1 : ¬n % 32 = 31 := by omega
  unfold scAt0_0
  rw [dif_pos h0, dif_neg h1]
  exact acc_first c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩)

/-- At every later feature tile: what was there plus the tile's contribution. -/
theorem carried_next (c : Dev nD) (n : ℕ) (hb : n < cfg0.N) (acc : Vec F S512x2048 .f32) (h0 : ¬n % 32 = 0) :
    scAt0_0 m c n hb acc = k0_pay2 (iblk m c 0 ⟨n, hb⟩) (iblk m c 1 ⟨n, hb⟩) (iblk m c 2 ⟨n, hb⟩) (iblk m c 3 ⟨n, hb⟩) acc := by
  unfold scAt0_0
  rw [dif_neg h0]
  by_cases h1 : n % 32 = 31
  · rw [dif_pos h1]
    exact acc_last c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) acc
  · rw [dif_neg h1]
    exact acc_mid c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) scM0_0 (Memref.isWhole_whole _) _ _ (iblk m c 0 ⟨n, hb⟩) (iblk m c 1 ⟨n, hb⟩) (iblk m c 2 ⟨n, hb⟩) (iblk m c 3 ⟨n, hb⟩) (iblk m c 4 ⟨n, hb⟩) acc

/-- At the last feature tile the output block is the accumulator the tile leaves, scaled by the routing weights. -/
theorem out_block (c : Dev nD) (t : Fin cfg0.N) (h1 : t.val % 32 = 31) :
    (outsAt0 m c t.val t.isLt).1 = k0_pay3 ((outsAt0 m c t.val t.isLt).2) (iblk m c 4 t) := by
  have h0 : ¬t.val % 32 = 0 := by omega
  rw [outsAt0_C m c t h0 h1]
  dsimp only
  rw [out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) ((outsAt0 m c (t.val - 1) (Nat.lt_of_le_of_lt (Nat.sub_le _ _) t.isLt)).2),
    acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) ((outsAt0 m c (t.val - 1) (Nat.lt_of_le_of_lt (Nat.sub_le _ _) t.isLt)).2)]

/-! ## The gathered rows the region finds -/

/-- A negative row index counts from the end of the 8192 rows. -/
def wrapped (idx : (⟨S4096, .i32⟩ : BufTy).Contents (Elt F)) : (⟨S4096, .i32⟩ : BufTy).Contents (Elt F) :=
  select (cmpi .slt idx (broadcastInDim S4096 ![] bcast_S_S4096 (constantI S_ 32 0#32)))
    (addi idx (broadcastInDim S4096 ![] bcast_S_S4096 (constantI S_ 32 8192#32))) idx

/-- The wrapped indices as a column. -/
def idxCol (idx : (⟨S4096, .i32⟩ : BufTy).Contents (Elt F)) : (⟨S4096x1, .i32⟩ : BufTy).Contents (Elt F) :=
  broadcastInDim S4096x1 ![0] bcast_S4096_S4096x1_0 (wrapped idx)

/-- Which wrapped indices lie in 0 … 8191. -/
def inRange (idx : (⟨S4096, .i32⟩ : BufTy).Contents (Elt F)) : (⟨S4096, .i1⟩ : BufTy).Contents (Elt F) :=
  Host.reduce IntOp.andi
    (andi (cmpi .sge (idxCol idx) (broadcastInDim S4096x1 ![] bcast_S_S4096x1 (constantI S_ 32 0#32)))
      (cmpi .sle (idxCol idx) (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_

/-- The gathered token rows: row `b` is row `idx b` of the hidden states, or the fill value where the index is out of range. -/
def taken (hs : (⟨S8192x2048, .f32⟩ : BufTy).Contents (Elt F)) (idx : (⟨S4096, .i32⟩ : BufTy).Contents (Elt F)) : (⟨S4096x2048, .f32⟩ : BufTy).Contents (Elt F) :=
  select (broadcastInDim S4096x2048 ![0] bcast_S4096_S4096x2048_0 (inRange idx))
    (Host.gather gather_S8192x2048_S4096x1_S4096x2048_1_0_n_n_0_1_12048 hs (idxCol idx))
    (broadcastInDim S4096x2048 ![] bcast_S_S4096x2048 (constant S_ .f32 0x7FC00000#32))

set_option maxHeartbeats 1000000 in
/-- The rows the region's first window reads are the gathered rows, narrowed to the matrix unit's input format. -/
theorem rows_eq (c : Dev nD) :
    V m c main_v1 = truncf .bf16 (taken (m ((c : Thread nD τ).loc main_arg0)) (m ((c : Thread nD τ).loc main_arg1))) bitsLt_bf16_f32 := by
  dsimp only [V]
  simp only [hostOps0, hostOps0_1, List.flatten_cons, List.flatten_nil, List.append_nil, List.cons_append, List.nil_append]
  after_results_simp
  rfl

end AnyInstance

/-! ## The accumulator after any point of a token tile, entry by entry -/

variable (m : (ℓ : Loc nD τ sig) → Buf (Elt Ideal) ℓ) (ρ : Dev nD → PrngReg)

/-- What point `n` adds to the accumulator block (nothing past the grid, where it is never used). -/
def addend (c : Dev nD) (n : ℕ) : S512x2048.Idx → EReal := fun y =>
  if h : n < cfg0.N then tileDown (iblk m c 0 ⟨n, h⟩) (iblk m c 1 ⟨n, h⟩) (iblk m c 2 ⟨n, h⟩) (iblk m c 3 ⟨n, h⟩) y else 0

theorem acc_total (c : Dev nD) (t : Fin cfg0.N) (y : S512x2048.Idx) :
    (outsAt0 m c t.val t.isLt).2 y
      = k0_pay1 (F := Ideal) y + ∑ s ∈ range (t.val % 32 + 1), addend m c (32 * (t.val / 32) + s) y := by
  rw [soutsAt0_0_eq m c t]
  refine Pipeline.accAt_add_apply _ _ (k0_pay1 (F := Ideal)) (addend m c) (32 * (t.val / 32)) 31 ?_ ?_ (t.val % 32) (by omega) _ y
  · intro h i
    rw [carried_first m c _ h _ (by omega), pay2_at]
    unfold addend
    rw [dif_pos h]
  · intro n h acc i hlt hle
    rw [carried_next m c n h acc (by omega), pay2_at]
    unfold addend
    rw [dif_pos h]

/-- A point's contribution in terms of the whole arrays. -/
theorem addend_eq (c : Dev nD) (q s : ℕ) (hq : q < 8) (hs : s < 32) (y : S512x2048.Idx) :
    addend m c (32 * q + s) y
      = ∑ k ∈ range 256, hid (V m c main_v1) (V m c main_arg3) (V m c main_arg4) (512 * q + (y 0).val) (256 * s + k)
          * at2 (V m c main_arg5 : S8192x2048.Idx → EReal) (256 * s + k) (y 1).val := by
  have hN : 32 * q + s < cfg0.N := by rw [show cfg0.N = 256 from N_0]; omega
  have e1 : (32 * q + s) / 32 = q := by omega
  have e2 : (32 * q + s) % 32 = s := by omega
  have hy0 : (y 0).val < 512 := idx2_lt0 y
  have hy1 : (y 1).val < 2048 := idx2_lt1 y
  unfold addend
  rw [dif_pos hN]
  unfold tileDown
  refine Finset.sum_congr rfl fun k hk => ?_
  have hk' : k < 256 := Finset.mem_range.mp hk
  have hp : ∀ (wB : S2048x256.Idx → EReal) (W : S2048x8192.Idx → EReal),
      (∀ k2, k2 < 2048 → at2 wB k2 k = at2 W k2 (256 * s + k)) →
      tileProj (iblk m c 0 ⟨32 * q + s, hN⟩) wB (y 0).val k = proj (V m c main_v1) W (512 * q + (y 0).val) (256 * s + k) := by
    intro wB W hw
    unfold tileProj proj
    refine Finset.sum_congr rfl fun k2 hk2 => ?_
    have hk2' : k2 < 2048 := Finset.mem_range.mp hk2
    rw [rows_at m c ⟨32 * q + s, hN⟩ _ _ hy0 hk2', hw k2 hk2']
    simp only [e1]
  have hg := hp (iblk m c 1 ⟨32 * q + s, hN⟩) (V m c main_arg3) (fun k2 h2 => by
    rw [gate_at m c ⟨32 * q + s, hN⟩ k2 k h2 hk']; simp only [e2])
  have hu := hp (iblk m c 2 ⟨32 * q + s, hN⟩) (V m c main_arg4) (fun k2 h2 => by
    rw [up_at' m c ⟨32 * q + s, hN⟩ k2 k h2 hk']; simp only [e2])
  unfold tileHid hid
  rw [hg, hu, down_at' m c ⟨32 * q + s, hN⟩ k _ hk' hy1]
  simp only [e2]

/-! ## The result array -/

/-- What a written-back block holds: the expert's entries at the block's place in the array. -/
theorem flushed_eq (c : Dev nD) (t : Fin cfg0.N) (hf : (cfg0.win 5).flush t = true) :
    (dats m 0 c).flushed 5 t = ((cfg0.win 5).blk t).view.read (Elt Ideal)
      (expert (V m c main_v1) (V m c main_arg3) (V m c main_arg4) (V m c main_arg5) (V m c main_arg2)) := by
  have h1 : t.val % 32 = 31 := (flush_out t).mp hf
  have hN : t.val < 256 := lt_of_lt_of_eq t.isLt N_0
  have hq : t.val / 32 < 8 := by omega
  rw [flushed5 m c t]
  funext y
  have hy0 : (y 0).val < 512 := idx2_lt0 y
  show (outsAt0 m c t.val t.isLt).1 y = expert (V m c main_v1) (V m c main_arg3) (V m c main_arg4) (V m c main_arg5) (V m c main_arg2)
    (((cfg0.win 5).blk t).view.emb y)
  have e0 : ((((cfg0.win 5).blk t).view.emb y) 0).val = 512 * (t.val / 32) + (y 0).val := by
    show win0_5.index t (0 : Fin 2) * 512 + 1 * (y 0).val = _
    rw [(idx_out t).1]; omega
  have e1 : ((((cfg0.win 5).blk t).view.emb y) 1).val = (y 1).val := by
    show win0_5.index t (1 : Fin 2) * 2048 + 1 * (y 1).val = _
    rw [(idx_out t).2]; omega
  rw [out_block m c t h1, pay3_at, acc_total m c t y, h1, pay1_at,
    Finset.sum_congr rfl (fun s hs => addend_eq m c (t.val / 32) s hq (Finset.mem_range.mp hs) y),
    tiles_total (fun f => hid (V m c main_v1) (V m c main_arg3) (V m c main_arg4) (512 * (t.val / 32) + (y 0).val) f
      * at2 (V m c main_arg5 : S8192x2048.Idx → EReal) f (y 1).val),
    route_at m c t _ hy0]
  unfold expert
  rw [e0, e1]

/-- An index of the array lies in point `t`'s output block iff each coordinate lies in the block's range. -/
theorem mem_out_block (t : Fin cfg0.N) (i : S4096x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v2).slice (win0_5.rect t)).set ↔ _
  rw [View.set_slice_whole, Rect.mem_set_unit]
  exact Iff.rfl

/-- Every entry of the result lies in the block written at the last feature tile of its token tile. -/
theorem covered (i : S4096x2048.Idx) : ∃ t : Fin cfg0.N, (cfg0.win 5).flush t = true ∧ i ∈ ((cfg0.win 5).blk t).view.set := by
  have hi0 : (i 0).val < 4096 := idx2_lt0 i
  have hi1 : (i 1).val < 2048 := idx2_lt1 i
  have hN : 32 * ((i 0).val / 512) + 31 < cfg0.N := by rw [show cfg0.N = 256 from N_0]; omega
  refine ⟨⟨32 * ((i 0).val / 512) + 31, hN⟩, (flush_out _).mpr (by show (32 * ((i 0).val / 512) + 31) % 32 = 31; omega), ?_⟩
  rw [mem_out_block]
  obtain ⟨e0, e1⟩ := idx_out ⟨32 * ((i 0).val / 512) + 31, hN⟩
  have e0' : win0_5.index ⟨32 * ((i 0).val / 512) + 31, hN⟩ (0 : Fin 2) = (i 0).val / 512 := by
    rw [e0]; show (32 * ((i 0).val / 512) + 31) / 32 = _; omega
  intro a
  match a with
  | ⟨0, _⟩ =>
    show win0_5.index ⟨32 * ((i 0).val / 512) + 31, hN⟩ (0 : Fin 2) * 512 ≤ (i 0).val ∧ (i 0).val < win0_5.index ⟨32 * ((i 0).val / 512) + 31, hN⟩ (0 : Fin 2) * 512 + 512
    rw [e0']; omega
  | ⟨1, _⟩ =>
    show win0_5.index ⟨32 * ((i 0).val / 512) + 31, hN⟩ (1 : Fin 2) * 2048 ≤ (i 1).val ∧ (i 1).val < win0_5.index ⟨32 * ((i 0).val / 512) + 31, hN⟩ (1 : Fin 2) * 2048 + 2048
    rw [e1]; omega

/-- The result array after the run. -/
theorem final (c : Dev nD) : (dats m 0 c).arrAt 5 cfg0.N
    = expert (V m c main_v1) (V m c main_arg3) (V m c main_arg4) (V m c main_arg5) (V m c main_arg2) :=
  (dats m 0 c).arrAt_eq_of_cover 5 _ (flushed_eq m c) covered

/-- The kernel's run: the result array at the expert of the gathered rows and the weight arguments, the arguments unchanged. -/
theorem run : θ_run defs (onTc (τ := τ) (main (F := Ideal))) ⟨m, fun _ => 0, ρ⟩ fun r => ∀ c : Dev nD,
      r.2.mem ((c : Thread nD τ).loc main_v2)
        = expert (taken (m ((c : Thread nD τ).loc main_arg0)) (m ((c : Thread nD τ).loc main_arg1)))
            (m ((c : Thread nD τ).loc main_arg3)) (m ((c : Thread nD τ).loc main_arg4)) (m ((c : Thread nD τ).loc main_arg5))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (by
      rw [rows_eq m c, V_main_arg3, V_main_arg4, V_main_arg5, V_main_arg2]
      rfl)), (h c).2⟩)
    (Value.run_blocks m ρ)

end Cert.KernelIdeal.Carry

end
-- ==== Proof.RefRun.lean ====
/-
  The reference program's run, read back by hand: @main is a straight line of thirty-eight array
  operations (the row gather with its index wrap-around and out-of-range fill, the gate and up projections,
  the sigmoid-weighted gate, the down projection, the routing scale), so every execution ends with the
  result array at the composed term of the six argument arrays, which stay as they were.
-/
import proofs.«113124_j49443663512208_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- A negative row index counts from the end of the 8192 rows. -/
def wrapped (idx : (⟨S4096, .i32⟩ : BufTy).Contents (Elt F)) : (⟨S4096, .i32⟩ : BufTy).Contents (Elt F) :=
  select (cmpi .slt idx (broadcastInDim S4096 ![] bcast_S_S4096 (constantI S_ 32 0#32)))
    (addi idx (broadcastInDim S4096 ![] bcast_S_S4096 (constantI S_ 32 8192#32))) idx

/-- The wrapped indices as a column. -/
def idxCol (idx : (⟨S4096, .i32⟩ : BufTy).Contents (Elt F)) : (⟨S4096x1, .i32⟩ : BufTy).Contents (Elt F) :=
  broadcastInDim S4096x1 ![0] bcast_S4096_S4096x1_0 (wrapped idx)

/-- Which wrapped indices lie in 0 … 8191. -/
def inRange (idx : (⟨S4096, .i32⟩ : BufTy).Contents (Elt F)) : (⟨S4096, .i1⟩ : BufTy).Contents (Elt F) :=
  Host.reduce IntOp.andi
    (andi (cmpi .sge (idxCol idx) (broadcastInDim S4096x1 ![] bcast_S_S4096x1 (constantI S_ 32 0#32)))
      (cmpi .sle (idxCol idx) (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_

/-- The gathered token rows: row `b` is row `idx b` of the hidden states, or the fill value where the index is out of range. -/
def taken (hs : (⟨S8192x2048, .f32⟩ : BufTy).Contents (Elt F)) (idx : (⟨S4096, .i32⟩ : BufTy).Contents (Elt F)) : (⟨S4096x2048, .f32⟩ : BufTy).Contents (Elt F) :=
  select (broadcastInDim S4096x2048 ![0] bcast_S4096_S4096x2048_0 (inRange idx))
    (Host.gather gather_S8192x2048_S4096x1_S4096x2048_1_0_n_n_0_1_12048 hs (idxCol idx))
    (broadcastInDim S4096x2048 ![] bcast_S_S4096x2048 (constant S_ .f32 0x7FC00000#32))

/-- `g · 1 / (1 + e^(-g))`, entry by entry. -/
def swish (g : (⟨S4096x8192, .f32⟩ : BufTy).Contents (Elt F)) : (⟨S4096x8192, .f32⟩ : BufTy).Contents (Elt F) :=
  mulf g (Host.divf (broadcastInDim S4096x8192 ![] bcast_S_S4096x8192 (constant S_ .f32 0x3F800000#32))
    (addf (broadcastInDim S4096x8192 ![] bcast_S_S4096x8192 (constant S_ .f32 0x3F800000#32)) (Host.exp (Host.negf g))))

/-- The expert on gathered rows `x`: `rw · ((swish (x·W1) ⊙ (x·W3)) · W2)`. -/
def expertOn (x : (⟨S4096x2048, .f32⟩ : BufTy).Contents (Elt F)) (rw : (⟨S4096x1, .f32⟩ : BufTy).Contents (Elt F)) (w1 w3 : (⟨S2048x8192, .f32⟩ : BufTy).Contents (Elt F)) (w2 : (⟨S8192x2048, .f32⟩ : BufTy).Contents (Elt F)) : (⟨S4096x2048, .f32⟩ : BufTy).Contents (Elt F) :=
  mulf (broadcastInDim S4096x2048 ![0, 1] bcast_S4096x1_S4096x2048_0_1 rw)
    (Host.dotGeneral dot_S4096x8192_S8192x2048_S4096x2048_1_0_0_1_n_n none
      (mulf (swish (Host.dotGeneral dot_S4096x2048_S2048x8192_S4096x8192_1_0_0_1_n_n none x w1))
        (Host.dotGeneral dot_S4096x2048_S2048x8192_S4096x8192_1_0_0_1_n_n none x w3)) w2)

/-! ## The run -/

/-- @main's operations in order, the three called functions' bodies written out at their calls. -/
abbrev ops : List (HloOp τ sig (Elt F)) :=
  [ TRef.nullary main_call0.c (constantI S_ 32 0#32),
    TRef.unary main_call0.c main_call0.v0 (broadcastInDim S4096 ![] bcast_S_S4096),
    TRef.binary (.of main_arg1) main_call0.v0 main_call0.v1 (cmpi .slt),
    TRef.nullary main_call0.c_0 (constantI S_ 32 8192#32),
    TRef.unary main_call0.c_0 main_call0.v2 (broadcastInDim S4096 ![] bcast_S_S4096),
    TRef.binary (.of main_arg1) main_call0.v2 main_call0.v3 addi,
    TRef.ternary main_call0.v1 main_call0.v3 (.of main_arg1) main_call0.call0.v0 select,
    TRef.unary main_call0.call0.v0 main_call0.v5 (broadcastInDim S4096x1 ![0] bcast_S4096_S4096x1_0),
    TRef.nullary main_call0.c_1 (constantI S1 32 8191#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg0) main_call0.v5 main_call0.v13 (fun x i => Host.gather gather_S8192x2048_S4096x1_S4096x2048_1_0_n_n_0_1_12048 x i),
    TRef.unary main_call0.v12 main_call0.v14 (broadcastInDim S4096x2048 ![0] bcast_S4096_S4096x2048_0),
    TRef.nullary main_call0.cst (constant S_ .f32 0x7FC00000#32),
    TRef.unary main_call0.cst main_call0.v15 (broadcastInDim S4096x2048 ![] bcast_S_S4096x2048),
    TRef.ternary main_call0.v14 main_call0.v13 main_call0.v15 main_call0.v16 select,
    binary main_v0 main_arg3 main_v1 ((fun l r => Host.dotGeneral dot_S4096x2048_S2048x8192_S4096x8192_1_0_0_1_n_n none l r) : (⟨S4096x2048, .f32⟩ : BufTy).Contents (Elt F) → (⟨S2048x8192, .f32⟩ : BufTy).Contents (Elt F) → (⟨S4096x8192, .f32⟩ : BufTy).Contents (Elt F)),
    TRef.unary (.of main_v1) main_call1.v0 Host.negf,
    TRef.unary main_call1.v0 main_call1.v1 Host.exp,
    TRef.nullary main_call1.cst (constant S_ .f32 0x3F800000#32),
    TRef.unary main_call1.cst main_call1.v2 (broadcastInDim S4096x8192 ![] bcast_S_S4096x8192),
    TRef.binary main_call1.v2 main_call1.v1 main_call1.v3 addf,
    TRef.nullary main_call1.cst_0 (constant S_ .f32 0x3F800000#32),
    TRef.unary main_call1.cst_0 main_call1.v4 (broadcastInDim S4096x8192 ![] bcast_S_S4096x8192),
    TRef.binary main_call1.v4 main_call1.v3 main_call1.v5 Host.divf,
    TRef.binary (.of main_v1) main_call1.v5 main_call1.v6 mulf,
    binary main_v0 main_arg4 main_v3 ((fun l r => Host.dotGeneral dot_S4096x2048_S2048x8192_S4096x8192_1_0_0_1_n_n none l r) : (⟨S4096x2048, .f32⟩ : BufTy).Contents (Elt F) → (⟨S2048x8192, .f32⟩ : BufTy).Contents (Elt F) → (⟨S4096x8192, .f32⟩ : BufTy).Contents (Elt F)),
    binary main_v2 main_v3 main_v4 (mulf : (⟨S4096x8192, .f32⟩ : BufTy).Contents (Elt F) → (⟨S4096x8192, .f32⟩ : BufTy).Contents (Elt F) → (⟨S4096x8192, .f32⟩ : BufTy).Contents (Elt F)),
    binary main_v4 main_arg5 main_v5 ((fun l r => Host.dotGeneral dot_S4096x8192_S8192x2048_S4096x2048_1_0_0_1_n_n none l r) : (⟨S4096x8192, .f32⟩ : BufTy).Contents (Elt F) → (⟨S8192x2048, .f32⟩ : BufTy).Contents (Elt F) → (⟨S4096x2048, .f32⟩ : BufTy).Contents (Elt F)),
    unary main_arg2 main_v6 (broadcastInDim S4096x2048 ![0, 1] bcast_S4096x1_S4096x2048_0_1 : (⟨S4096x1, .f32⟩ : BufTy).Contents (Elt F) → (⟨S4096x2048, .f32⟩ : BufTy).Contents (Elt F)),
    binary main_v6 main_v5 main_v7 (mulf : (⟨S4096x2048, .f32⟩ : BufTy).Contents (Elt F) → (⟨S4096x2048, .f32⟩ : BufTy).Contents (Elt F) → (⟨S4096x2048, .f32⟩ : BufTy).Contents (Elt F)) ]

set_option maxRecDepth 4096 in
/-- @main is that straight line: the called functions unfolded at their calls, sequencing re-associated. -/
theorem main_eq (c : Dev nD) : main (F := F) c = seq ops := by
  simp only [main, fn_take.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..,
    binary_bufs_sub .., binary_bufs_sub .., binary_bufs_sub .., unary_bufs_sub .., binary_bufs_sub ..⟩

set_option maxHeartbeats 1000000 in
/-- Every weakly fair execution of the reference terminates with the result array at the expert's term of the
    gathered rows and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = expertOn (taken (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v7).trans (by
        after_results_simp
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.HandRun

end
-- ==== Proof.RefValue.lean ====
/-
  The reference's composed term IS the expert of the specification, entry by entry: its three matrix products are
  plain sums over their contracted axes, its sigmoid is spelled 1 / (1 + e^(-g)), which is the logistic function at
  every extended real, and its routing weight stands on the left of the final product where the specification has it
  on the right (multiplication commutes).
-/
import proofs.«113124_j49443663512208_2_alg».proof.Proof.RefRun
import proofs.«113124_j49443663512208_2_alg».proof.Proof.Spec
import Idealize.ShloMosaic.Lib.Pipeline.Value

noncomputable section

open Idealize.ShloMosaic Idealize.ShloMosaic.ValueIdx Finset

namespace Cert.ReferenceIdeal.HandRun

open Cert.ReferenceIdeal Cert.ReferenceIdeal.Gen Cert.Spec

/-! ## The two products' index maps, coordinate by coordinate -/

theorem proj_l0 (j : S4096x8192.Idx) (k : dot_S4096x2048_S2048x8192_S4096x8192_1_0_0_1_n_n.contr.Idx) :
    (dot_S4096x2048_S2048x8192_S4096x8192_1_0_0_1_n_n.lhsIdx j k 0).val = (j 0).val := by
  simp [DotDims.lhsIdx, dot_S4096x2048_S2048x8192_S4096x8192_1_0_0_1_n_n]; rfl
theorem proj_l1 (j : S4096x8192.Idx) (k : dot_S4096x2048_S2048x8192_S4096x8192_1_0_0_1_n_n.contr.Idx) :
    (dot_S4096x2048_S2048x8192_S4096x8192_1_0_0_1_n_n.lhsIdx j k 1).val = (k ⟨0, by decide⟩).val := by
  simp [DotDims.lhsIdx, dot_S4096x2048_S2048x8192_S4096x8192_1_0_0_1_n_n]; rfl
theorem proj_r0 (j : S4096x8192.Idx) (k : dot_S4096x2048_S2048x8192_S4096x8192_1_0_0_1_n_n.contr.Idx) :
    (dot_S4096x2048_S2048x8192_S4096x8192_1_0_0_1_n_n.rhsIdx j k 0).val = (k ⟨0, by decide⟩).val := by
  simp [DotDims.rhsIdx, dot_S4096x2048_S2048x8192_S4096x8192_1_0_0_1_n_n]; rfl
theorem proj_r1 (j : S4096x8192.Idx) (k : dot_S4096x2048_S2048x8192_S4096x8192_1_0_0_1_n_n.contr.Idx) :
    (dot_S4096x2048_S2048x8192_S4096x8192_1_0_0_1_n_n.rhsIdx j k 1).val = (j 1).val := by
  simp [DotDims.rhsIdx, dot_S4096x2048_S2048x8192_S4096x8192_1_0_0_1_n_n]; rfl

theorem down_l0 (j : S4096x2048.Idx) (k : dot_S4096x8192_S8192x2048_S4096x2048_1_0_0_1_n_n.contr.Idx) :
    (dot_S4096x8192_S8192x2048_S4096x2048_1_0_0_1_n_n.lhsIdx j k 0).val = (j 0).val := by
  simp [DotDims.lhsIdx, dot_S4096x8192_S8192x2048_S4096x2048_1_0_0_1_n_n]; rfl
theorem down_l1 (j : S4096x2048.Idx) (k : dot_S4096x8192_S8192x2048_S4096x2048_1_0_0_1_n_n.contr.Idx) :
    (dot_S4096x8192_S8192x2048_S4096x2048_1_0_0_1_n_n.lhsIdx j k 1).val = (k ⟨0, by decide⟩).val := by
  simp [DotDims.lhsIdx, dot_S4096x8192_S8192x2048_S4096x2048_1_0_0_1_n_n]; rfl
theorem down_r0 (j : S4096x2048.Idx) (k : dot_S4096x8192_S8192x2048_S4096x2048_1_0_0_1_n_n.contr.Idx) :
    (dot_S4096x8192_S8192x2048_S4096x2048_1_0_0_1_n_n.rhsIdx j k 0).val = (k ⟨0, by decide⟩).val := by
  simp [DotDims.rhsIdx, dot_S4096x8192_S8192x2048_S4096x2048_1_0_0_1_n_n]; rfl
theorem down_r1 (j : S4096x2048.Idx) (k : dot_S4096x8192_S8192x2048_S4096x2048_1_0_0_1_n_n.contr.Idx) :
    (dot_S4096x8192_S8192x2048_S4096x2048_1_0_0_1_n_n.rhsIdx j k 1).val = (j 1).val := by
  simp [DotDims.rhsIdx, dot_S4096x8192_S8192x2048_S4096x2048_1_0_0_1_n_n]; rfl

/-- A projection `x · W` at an index. -/
theorem proj_at (x : FVec Ideal S4096x2048 .f32) (w : FVec Ideal S2048x8192 .f32) (i : S4096x8192.Idx) :
    Host.dotGeneral dot_S4096x2048_S2048x8192_S4096x8192_1_0_0_1_n_n none x w i = proj x w (i 0).val (i 1).val := by
  simp only [Host.dotGeneral]
  rw [Ideal.dotGeneral_apply]
  exact dot_at2 _ rfl rfl proj_l0 proj_l1 proj_r0 proj_r1 x w i

/-- The down projection at an index. -/
theorem down_at (h : FVec Ideal S4096x8192 .f32) (w : FVec Ideal S8192x2048 .f32) (i : S4096x2048.Idx) :
    Host.dotGeneral dot_S4096x8192_S8192x2048_S4096x2048_1_0_0_1_n_n none h w i = ∑ f ∈ range 8192, at2 h (i 0).val f * at2 w f (i 1).val := by
  simp only [Host.dotGeneral]
  rw [Ideal.dotGeneral_apply]
  exact dot_at2 _ rfl rfl down_l0 down_l1 down_r0 down_r1 h w i

/-- The sigmoid-weighted gate at an index. -/
theorem swish_at (g : FVec Ideal S4096x8192 .f32) (i : S4096x8192.Idx) : swish (F := Ideal) g i = g i * Ideal.logistic (g i) := by
  unfold swish
  rw [mulf_apply]
  show g i * Ideal.div (Ideal.ofBits .f32 0x3F800000#32) (Ideal.ofBits .f32 0x3F800000#32 + Ideal.exp (-(g i))) = _
  rw [ofBits_one]
  rfl

/-- The reference's term is the specification's expert. -/
theorem expertOn_eq (x : FVec Ideal S4096x2048 .f32) (rw : FVec Ideal S4096x1 .f32) (w1 w3 : FVec Ideal S2048x8192 .f32)
    (w2 : FVec Ideal S8192x2048 .f32) : expertOn (F := Ideal) x rw w1 w3 w2 = expert x w1 w3 w2 rw := by
  funext i
  unfold expertOn expert
  rw [mulf_apply, mul_comm]
  refine congrArg₂ (· * ·) ?_ ?_
  · refine (down_at _ _ i).trans (Finset.sum_congr rfl fun f hf => ?_)
    have hf' : f < 8192 := Finset.mem_range.mp hf
    refine congrArg₂ (· * ·) ?_ rfl
    rw [at2_mk _ _ _ (idx2_lt0 i) hf', mulf_apply, swish_at]
    unfold hid
    refine congrArg₂ (· * ·) (congrArg₂ (· * ·) ?_ (congrArg Ideal.logistic ?_)) ?_
    all_goals exact proj_at _ _ _
  · rw [at2_mk rw _ 0 (idx2_lt0 i) (by decide)]
    exact broadcastInDim_apply _ _ rw i _ (fun a => by
      match a with
      | ⟨0, _⟩ => rfl
      | ⟨1, _⟩ => rfl)

end Cert.ReferenceIdeal.HandRun

end
-- ==== Proof.lean ====
/-
  A routed expert: the rows of the hidden states named by an index vector are gathered, projected by the gate and
  up weights, gated (the gate times its logistic value, times the up projection), projected down, and each
  row is scaled by its routing weight.  The kernel runs the three products tile by tile, 512 token rows by
  256 hidden features at a time, adding each tile's partial down projection into an accumulator block that
  it zeroes at a token tile's first feature tile and scales and writes out at its last; the reference
  computes the three products whole.

  Over the extended reals the two agree for every input: a change of float format is the identity, a
  product into a zero accumulator is the plain sum over the contracted axis, the 32 partial sums of 256
  features add up to the sum over all 8192 features because addition is associative and commutative, the
  reference's 1 / (1 + e^(-g)) is the logistic function at every extended real, and the routing weight
  commutes with the projected row.  Nothing here needs the inputs finite.  The gather (with its index
  wrap-around and its fill value for an out-of-range index) is the same chain of operations in both
  programs and is carried as one term, never opened.

  The kernel's and its idealization's frames are the generated ones; the reference's frame is its run read
  back by hand with the result dropped; the idealization rewrote nothing, so there is nothing to preserve.
-/
import proofs.«113124_j49443663512208_2_alg».proof.Defs
import proofs.«113124_j49443663512208_2_alg».proof.Proof.Gen.Kernel
import proofs.«113124_j49443663512208_2_alg».proof.Proof.Gen.Kernel.Frame
import proofs.«113124_j49443663512208_2_alg».proof.Proof.Gen.KernelIdeal
import proofs.«113124_j49443663512208_2_alg».proof.Proof.Gen.KernelIdeal.Frame
import proofs.«113124_j49443663512208_2_alg».proof.Proof.Gen.ReferenceIdeal
import proofs.«113124_j49443663512208_2_alg».proof.Proof.Gen.Pre_finite_inputs
import proofs.«113124_j49443663512208_2_alg».proof.Proof.KernelSide
import proofs.«113124_j49443663512208_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.HandRun.run (F := Ideal) m ρ)

/-- Both programs end with the specification's expert of the gathered rows of arguments that agree. -/
theorem algebraic : Cert.algebraic_KernelIdeal_ReferenceIdeal := by
  intro m ρ m' ρ' _ hagree
  refine ⟨_, Cert.KernelIdeal.Carry.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandRun.expertOn_eq, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
